-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v42_0)) (v1 : (c : Dev Cert.KernelIdeal.nD) → Buf (Elt Ideal) ((c.tc : Thread Cert.KernelIdeal.nD Cert.KernelIdeal.τ).loc Cert.KernelIdeal.main_v42_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42_0) = v0 c
          ∧ r.2.mem ((c.tc : Thread Cert.KernelIdeal.nD Cert.KernelIdeal.τ).loc Cert.KernelIdeal.main_v42_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S1024x256 : Shape := ⟨2, ![1024, 256]⟩
abbrev S1024 : Shape := ⟨1, ![1024]⟩
abbrev S256x1024 : Shape := ⟨2, ![256, 1024]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S256x1024 : S_.BroadcastsInDim S256x1024 (![] : Fin 0 → Fin S256x1024.rank)
  reducesTo_S256x1024_S_d0_1 : S256x1024.ReducesTo [0, 1] S_

variable [Facts]

def fn_part2 {F : FTy → Type} [FloatOps F] (main_arg7 : FVec F S256x1024 .f32) (main_arg8 : FVec F S256x1024 .f32) (main_v33 : IVec S_ 1) : IVec S_ 1 :=
  let main_v34 : FVec F S256x1024 .f32 := Host.absf main_arg7
  let main_cst_12 : FVec F S_ .f32 := constant S_ .f32 0x7F800000#32
  let main_v35 : FVec F S256x1024 .f32 := broadcastInDim S256x1024 ![] bcast_S_S256x1024 main_cst_12
  let main_v36 : IVec S256x1024 1 := cmpf .olt main_v34 main_v35
  let main_c_13 : IVec S_ 1 := constantI S_ 1 1#1
  let main_v37 : IVec S_ 1 := (fun x v => Host.reduce IntOp.andi x v reducesTo_S256x1024_S_d0_1 h_S_) main_v36 main_c_13
  let main_v38 : IVec S_ 1 := andi main_v33 main_v37
  let main_v39 : FVec F S256x1024 .f32 := Host.absf main_arg8
  let main_cst_14 : FVec F S_ .f32 := constant S_ .f32 0x7F800000#32
  let main_v40 : FVec F S256x1024 .f32 := broadcastInDim S256x1024 ![] bcast_S_S256x1024 main_cst_14
  let main_v41 : IVec S256x1024 1 := cmpf .olt main_v39 main_v40
  let main_c_15 : IVec S_ 1 := constantI S_ 1 1#1
  let main_v42 : IVec S_ 1 := (fun x v => Host.reduce IntOp.andi x v reducesTo_S256x1024_S_d0_1 h_S_) main_v41 main_c_15
  let main_v43 : IVec S_ 1 := andi main_v38 main_v42
  main_v43

def fn_part1 {F : FTy → Type} [FloatOps F] (main_arg4 : FVec F S1024x256 .f32) (main_arg5 : FVec F S1024 .f32) (main_arg6 : FVec F S1024 .f32) (main_arg7 : FVec F S256x1024 .f32) (main_arg8 : FVec F S256x1024 .f32) (main_v13 : IVec S_ 1) (main_v16 : IVec S1024x256 1) : IVec S_ 1 :=
  let main_c_5 : IVec S_ 1 := constantI S_ 1 1#1
  let main_v17 : IVec S_ 1 := (fun x v => Host.reduce IntOp.andi x v reducesTo_S1024x256_S_d0_1 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S32768x256 .f32) (main_arg1 : FVec F S32768x256 .f32) (main_arg2 : FVec F S32768x256 .f32) (main_arg3 : FVec F S1024x256 .f32) (main_arg4 : FVec F S1024x256 .f32) (main_arg5 : FVec F S1024 .f32) (main_arg6 : FVec F S1024 .f32) (main_arg7 : FVec F S256x1024 .f32) (main_arg8 : FVec F S256x1024 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S32768x256 .f32 := Host.absf main_arg2
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  let main_v14 : FVec F S1024x256 .f32 := Host.absf main_arg3
  let main_cst_4 : FVec F S_ .f32 := constant S_ .f32 0x7F800000#32
  let main_v15 : FVec F S1024x256 .f32 := broadcastInDim S1024x256 ![] bcast_S_S1024x256 main_cst_4
  let main_v16 : IVec S1024x256 1 := cmpf .olt main_v14 main_v15
  fn_part1 (F := F) main_arg4 main_arg5 main_arg6 main_arg7 main_arg8 main_v13 main_v16
-- ==== Kernel.lean ====
abbrev S32768x256 : Shape := ⟨2, ![32768, 256]⟩
abbrev S1024x256 : Shape := ⟨2, ![1024, 256]⟩
abbrev S1024 : Shape := ⟨1, ![1024]⟩
abbrev S256x1024 : Shape := ⟨2, ![256, 1024]⟩
abbrev S_ : Shape := ⟨0, ![]⟩
abbrev S1x1024 : Shape := ⟨2, ![1, 1024]⟩
abbrev S1024x1024 : Shape := ⟨2, ![1024, 1024]⟩

abbrev nBuf : Space → Nat
  | .hbm => 93
  | .vmem => 13
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S1024x256, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | .hbm, ⟨39, _⟩ => ⟨S256x1024, .f32⟩
  | .hbm, ⟨40, _⟩ => ⟨S256x1024, .bf16⟩
  | .hbm, ⟨41, _⟩ => ⟨S256x1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S256x1024, .f32⟩
  | .hbm, ⟨46, _⟩ => ⟨S256x1024, .f32⟩
  | .hbm, ⟨47, _⟩ => ⟨S_, .f32⟩
  | .hbm, ⟨48, _⟩ => ⟨S256x1024, .f32⟩
  | .hbm, ⟨49, _⟩ => ⟨S256x1024, .f32⟩
  | .hbm, ⟨50, _⟩ => ⟨S_, .f32⟩
  | .hbm, ⟨51, _⟩ => ⟨S256x1024, .f32⟩
  | .hbm, ⟨52, _⟩ => ⟨S256x1024, .f32⟩
  | .hbm, ⟨53, _⟩ => ⟨S256x1024, .f32⟩
  | .hbm, ⟨54, _⟩ => ⟨S_, .f32⟩
  | .hbm, ⟨55, _⟩ => ⟨S256x1024, .f32⟩
  | .hbm, ⟨56, _⟩ => ⟨S256x1024, .f32⟩
  | .hbm, ⟨57, _⟩ => ⟨S256x1024, .f32⟩
  | .hbm, ⟨58, _⟩ => ⟨S256x1024, .bf16⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S_, .f32⟩
  | .hbm, ⟨65, _⟩ => ⟨S1024, .f32⟩
  | .hbm, ⟨66, _⟩ => ⟨S1024, .f32⟩
  | .hbm, ⟨67, _⟩ => ⟨S_, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S1024, .f32⟩
  | .hbm, ⟨73, _⟩ => ⟨S1024, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S_, .f32⟩
  | .hbm, ⟨80, _⟩ => ⟨S1024, .f32⟩
  | .hbm, ⟨81, _⟩ => ⟨S1024, .f32⟩
  | .hbm, ⟨82, _⟩ => ⟨S_, .f32⟩
  | .hbm, ⟨83, _⟩ => ⟨S1024, .f32⟩
  | .hbm, ⟨84, _⟩ => ⟨S1024, .f32⟩
  | .hbm, ⟨85, _⟩ => ⟨S1024, .f32⟩
  | .hbm, ⟨86, _⟩ => ⟨S_, .f32⟩
  | .hbm, ⟨87, _⟩ => ⟨S1024, .f32⟩
  | .hbm, ⟨88, _⟩ => ⟨S1024, .f32⟩
  | .hbm, ⟨89, _⟩ => ⟨S1024, .f32⟩
  | .hbm, ⟨90, _⟩ => ⟨S1x1024, .f32⟩
  | .hbm, ⟨91, _⟩ => ⟨S32768x256, .f32⟩
  | .hbm, ⟨92, _⟩ => ⟨S32768x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1024x256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v11 : Ref sig .tc := ⟨.hbm, 31, rfl⟩
abbrev main_cst_5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_6 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_7 : Ref sig .tc := ⟨.hbm, 42, rfl⟩
abbrev main_cst_8 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v20 : Ref sig .tc := ⟨.hbm, 49, rfl⟩
abbrev main_cst_9 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_cst_10 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_11 : Ref sig .tc := ⟨.hbm, 59, rfl⟩
abbrev main_cst_12 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_call4_v3 : Ref sig .tc := ⟨.hbm, 64, rfl⟩
abbrev main_call4_v4 : Ref sig .tc := ⟨.hbm, 65, rfl⟩
abbrev main_v28 : Ref sig .tc := ⟨.hbm, 66, rfl⟩
abbrev main_cst_13 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_14 : Ref sig .tc := ⟨.hbm, 71, rfl⟩
abbrev main_v32 : Ref sig .tc := ⟨.hbm, 72, rfl⟩
abbrev main_v33 : Ref sig .tc := ⟨.hbm, 73, rfl⟩
abbrev main_cst_15 : Ref sig .tc := ⟨.hbm, 74, rfl⟩
abbrev main_cst_16 : Ref sig .tc := ⟨.hbm, 75, rfl⟩
abbrev main_call6_v0 : Ref sig .tc := ⟨.hbm, 76, rfl⟩
abbrev main_call6_v1 : Ref sig .tc := ⟨.hbm, 77, rfl⟩
abbrev main_call6_v2 : Ref sig .tc := ⟨.hbm, 78, rfl⟩
abbrev main_call6_v3 : Ref sig .tc := ⟨.hbm, 79, rfl⟩
abbrev main_call6_v4 : Ref sig .tc := ⟨.hbm, 80, rfl⟩
abbrev main_v34 : Ref sig .tc := ⟨.hbm, 81, rfl⟩
abbrev main_cst_17 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_cst_18 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42_0 : Ref sig .tc := ⟨.hbm, 91, rfl⟩
abbrev main_v42_1 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  reducesTo_S1024x256_S_d0_1 : S1024x256.ReducesTo [0, 1] S_
  h_S_ : 0 < S_.numel
  bcast_S_S256x1024 : S_.BroadcastsInDim S256x1024 (![] : Fin 0 → Fin S256x1024.rank)
  transposes_S1024x256_S256x1024_1_0 : S1024x256.Transposes [1, 0] S256x1024
  bitsLt_bf16_f32 : FTy.bits .bf16 < FTy.bits .f32
  bcast_S_S1024 : S_.BroadcastsInDim S1024 (![] : Fin 0 → Fin S1024.rank)
  shapeCasts_S1024_S1x1024 : S1024.ShapeCasts S1x1024
  inb_S1024x256_S1024x256_0_0 : ∀ a, (![0, 0] : Fin 2 → Nat) a + S1024x256.size a ≤ S1024x256.size a
  h_S1024x256 : 0 < S1024x256.numel
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S32768x256.size a
  hwx0_1 : ∀ i : grid0.Coords, EltTy.bits .f32 = 32 ∨ (Rect.block (s := S32768x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S32768x256.size a
  hwx0_2 : ∀ i : grid0.Coords, EltTy.bits .f32 = 32 ∨ (Rect.block (s := S32768x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .bf16 = 32 ∨ (Rect.block (s := S256x1024) S256x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S32768x256.size a
  hwx0_6 : ∀ i : grid0.Coords, EltTy.bits .f32 = 32 ∨ (Rect.block (s := S32768x256) S1024x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S32768x256.size a
  hwx0_7 : ∀ i : grid0.Coords, EltTy.bits .f32 = 32 ∨ (Rect.block (s := S32768x256) S1024x256.size (cc0_transform_7 i) (hinb0_7 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v42_0) S1024x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v42_1) S1024x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x256 : Shape := ⟨2, ![32768, 256]⟩
abbrev S1024x256 : Shape := ⟨2, ![1024, 256]⟩
abbrev S1024 : Shape := ⟨1, ![1024]⟩
abbrev S256x1024 : Shape := ⟨2, ![256, 1024]⟩
abbrev S_ : Shape := ⟨0, ![]⟩
abbrev S32768x1024 : Shape := ⟨2, ![32768, 1024]⟩
abbrev S1x1024 : Shape := ⟨2, ![1, 1024]⟩

abbrev nBuf : Space → Nat
  | .hbm => 220
  | .vmem => 0
  | .smem => 0
  | _ => 0

abbrev hbmTy0_0 (i : Nat) : BufTy := match i % 128 with
  | 0 => ⟨S32768x256, .f32⟩
  | 1 => ⟨S32768x256, .f32⟩
  | 2 => ⟨S32768x256, .f32⟩
  | 3 => ⟨S1024x256, .f32⟩
  | 4 => ⟨S1024x256, .f32⟩
  | 5 => ⟨S1024, .f32⟩
  | 6 => ⟨S1024, .f32⟩
  | 7 => ⟨S256x1024, .f32⟩
  | 8 => ⟨S256x1024, .f32⟩
  | 9 => ⟨S_, .f32⟩
  | 10 => ⟨S_, .f32⟩
  | 11 => ⟨S256x1024, .f32⟩
  | 12 => ⟨S256x1024, .f32⟩
  | 13 => ⟨S_, .f32⟩
  | 14 => ⟨S256x1024, .f32⟩
  | 15 => ⟨S256x1024, .f32⟩
  | 16 => ⟨S_, .f32⟩
  | 17 => ⟨S_, .f32⟩
  | 18 => ⟨S256x1024, .f32⟩
  | 19 => ⟨S256x1024, .f32⟩
  | 20 => ⟨S_, .f32⟩
  | 21 => ⟨S256x1024, .f32⟩
  | 22 => ⟨S256x1024, .f32⟩
  | 23 => ⟨S256x1024, .f32⟩
  | 24 => ⟨S_, .f32⟩
  | 25 => ⟨S_, .f32⟩
  | 26 => ⟨S_, .f32⟩
  | 27 => ⟨S256x1024, .f32⟩
  | 28 => ⟨S256x1024, .f32⟩
  | 29 => ⟨S_, .f32⟩
  | 30 => ⟨S256x1024, .f32⟩
  | 31 => ⟨S256x1024, .f32⟩
  | 32 => ⟨S_, .f32⟩
  | 33 => ⟨S256x1024, .f32⟩
  | 34 => ⟨S256x1024, .f32⟩
  | 35 => ⟨S256x1024, .f32⟩
  | 36 => ⟨S_, .f32⟩
  | 37 => ⟨S256x1024, .f32⟩
  | 38 => ⟨S256x1024, .f32⟩
  | 39 => ⟨S256x1024, .f32⟩
  | 40 => ⟨S32768x1024, .f32⟩
  | 41 => ⟨S_, .f32⟩
  | 42 => ⟨S_, .f32⟩
  | 43 => ⟨S_, .f32⟩
  | 44 => ⟨S1024, .f32⟩
  | 45 => ⟨S1024, .f32⟩
  | 46 => ⟨S_, .f32⟩
  | 47 => ⟨S1024, .f32⟩
  | 48 => ⟨S1024, .f32⟩
  | 49 => ⟨S_, .f32⟩
  | 50 => ⟨S1024, .f32⟩
  | 51 => ⟨S1024, .f32⟩
  | 52 => ⟨S1024, .f32⟩
  | 53 => ⟨S_, .f32⟩
  | 54 => ⟨S1024, .f32⟩
  | 55 => ⟨S1024, .f32⟩
  | 56 => ⟨S1x1024, .f32⟩
  | 57 => ⟨S32768x1024, .f32⟩
  | 58 => ⟨S32768x1024, .f32⟩
  | 59 => ⟨S256x1024, .f32⟩
  | 60 => ⟨S_, .f32⟩
  | 61 => ⟨S_, .f32⟩
  | 62 => ⟨S_, .f32⟩
  | 63 => ⟨S256x1024, .f32⟩
  | 64 => ⟨S256x1024, .f32⟩
  | 65 => ⟨S_, .f32⟩
  | 66 => ⟨S256x1024, .f32⟩
  | 67 => ⟨S256x1024, .f32⟩
  | 68 => ⟨S_, .f32⟩
  | 69 => ⟨S256x1024, .f32⟩
  | 70 => ⟨S256x1024, .f32⟩
  | 71 => ⟨S256x1024, .f32⟩
  | 72 => ⟨S_, .f32⟩
  | 73 => ⟨S256x1024, .f32⟩
  | 74 => ⟨S256x1024, .f32⟩
  | 75 => ⟨S256x1024, .f32⟩
  | 76 => ⟨S32768x1024, .f32⟩
  | 77 => ⟨S32768x1024, .f32⟩
  | 78 => ⟨S_, .f32⟩
  | 79 => ⟨S_, .f32⟩
  | 80 => ⟨S_, .f32⟩
  | 81 => ⟨S1024, .f32⟩
  | 82 => ⟨S1024, .f32⟩
  | 83 => ⟨S_, .f32⟩
  | 84 => ⟨S1024, .f32⟩
  | 85 => ⟨S1024, .f32⟩
  | 86 => ⟨S_, .f32⟩
  | 87 => ⟨S1024, .f32⟩
  | 88 => ⟨S1024, .f32⟩
  | 89 => ⟨S1024, .f32⟩
  | 90 => ⟨S_, .f32⟩
  | 91 => ⟨S1024, .f32⟩
  | 92 => ⟨S1024, .f32⟩
  | 93 => ⟨S1x1024, .f32⟩
  | 94 => ⟨S32768x1024, .f32⟩
  | 95 => ⟨S32768x1024, .f32⟩
  | 96 => ⟨S32768x256, .f32⟩
  | 97 => ⟨S32768x256, .f32⟩
  | 98 => ⟨S32768x256, .f32⟩
  | 99 => ⟨S32768x256, .f32⟩
  | 100 => ⟨S32768x256, .f32⟩
  | 101 => ⟨S32768x256, .f32⟩
  | 102 => ⟨S_, .f32⟩
  | 103 => ⟨S32768x256, .f32⟩
  | 104 => ⟨S32768x256, .f32⟩
  | 105 => ⟨S_, .f32⟩
  | 106 => ⟨S32768x256, .f32⟩
  | 107 => ⟨S32768x256, .f32⟩
  | 108 => ⟨S_, .f32⟩
  | 109 => ⟨S_, .f32⟩
  | 110 => ⟨S_, .f32⟩
  | 111 => ⟨S32768x256, .f32⟩
  | 112 => ⟨S32768x256, .f32⟩
  | 113 => ⟨S_, .f32⟩
  | 114 => ⟨S32768x256, .f32⟩
  | 115 => ⟨S32768x256, .f32⟩
  | 116 => ⟨S_, .f32⟩
  | 117 => ⟨S32768x256, .f32⟩
  | 118 => ⟨S32768x256, .f32⟩
  | 119 => ⟨S32768x256, .f32⟩
  | 120 => ⟨S_, .f32⟩
  | 121 => ⟨S32768x256, .f32⟩
  | 122 => ⟨S32768x256, .f32⟩
  | 123 => ⟨S32768x256, .f32⟩
  | 124 => ⟨S32768x256, .f32⟩
  | 125 => ⟨S_, .f32⟩
  | 126 => ⟨S32768x256, .f32⟩
  | 127 => ⟨S32768x256, .f32⟩
  | _ => ⟨S32768x256, .f32⟩

abbrev hbmTy0_1 (i : Nat) : BufTy := match i % 128 with
  | 0 => ⟨S_, .f32⟩
  | 1 => ⟨S32768x256, .f32⟩
  | 2 => ⟨S32768x256, .f32⟩
  | 3 => ⟨S_, .f32⟩
  | 4 => ⟨S_, .f32⟩
  | 5 => ⟨S_, .f32⟩
  | 6 => ⟨S32768x256, .f32⟩
  | 7 => ⟨S32768x256, .f32⟩
  | 8 => ⟨S_, .f32⟩
  | 9 => ⟨S32768x256, .f32⟩
  | 10 => ⟨S32768x256, .f32⟩
  | 11 => ⟨S_, .f32⟩
  | 12 => ⟨S32768x256, .f32⟩
  | 13 => ⟨S32768x256, .f32⟩
  | 14 => ⟨S32768x256, .f32⟩
  | 15 => ⟨S_, .f32⟩
  | 16 => ⟨S32768x256, .f32⟩
  | 17 => ⟨S32768x256, .f32⟩
  | 18 => ⟨S32768x256, .f32⟩
  | 19 => ⟨S_, .f32⟩
  | 20 => ⟨S_, .f32⟩
  | 21 => ⟨S_, .f32⟩
  | 22 => ⟨S32768x256, .f32⟩
  | 23 => ⟨S32768x256, .f32⟩
  | 24 => ⟨S_, .f32⟩
  | 25 => ⟨S32768x256, .f32⟩
  | 26 => ⟨S32768x256, .f32⟩
  | 27 => ⟨S_, .f32⟩
  | 28 => ⟨S32768x256, .f32⟩
  | 29 => ⟨S32768x256, .f32⟩
  | 30 => ⟨S32768x256, .f32⟩
  | 31 => ⟨S_, .f32⟩
  | 32 => ⟨S32768x256, .f32⟩
  | 33 => ⟨S32768x256, .f32⟩
  | 34 => ⟨S32768x256, .f32⟩
  | 35 => ⟨S32768x256, .f32⟩
  | 36 => ⟨S_, .f32⟩
  | 37 => ⟨S32768x256, .f32⟩
  | 38 => ⟨S32768x256, .f32⟩
  | 39 => ⟨S_, .f32⟩
  | 40 => ⟨S32768x256, .f32⟩
  | 41 => ⟨S32768x256, .f32⟩
  | 42 => ⟨S_, .f32⟩
  | 43 => ⟨S_, .f32⟩
  | 44 => ⟨S_, .f32⟩
  | 45 => ⟨S32768x256, .f32⟩
  | 46 => ⟨S32768x256, .f32⟩
  | 47 => ⟨S_, .f32⟩
  | 48 => ⟨S32768x256, .f32⟩
  | 49 => ⟨S32768x256, .f32⟩
  | 50 => ⟨S_, .f32⟩
  | 51 => ⟨S32768x256, .f32⟩
  | 52 => ⟨S32768x256, .f32⟩
  | 53 => ⟨S32768x256, .f32⟩
  | 54 => ⟨S_, .f32⟩
  | 55 => ⟨S32768x256, .f32⟩
  | 56 => ⟨S32768x256, .f32⟩
  | 57 => ⟨S32768x256, .f32⟩
  | 58 => ⟨S32768x256, .f32⟩
  | 59 => ⟨S32768x256, .f32⟩
  | 60 => ⟨S_, .f32⟩
  | 61 => ⟨S_, .f32⟩
  | 62 => ⟨S_, .f32⟩
  | 63 => ⟨S32768x256, .f32⟩
  | 64 => ⟨S32768x256, .f32⟩
  | 65 => ⟨S_, .f32⟩
  | 66 => ⟨S32768x256, .f32⟩
  | 67 => ⟨S32768x256, .f32⟩
  | 68 => ⟨S_, .f32⟩
  | 69 => ⟨S32768x256, .f32⟩
  | 70 => ⟨S32768x256, .f32⟩
  | 71 => ⟨S32768x256, .f32⟩
  | 72 => ⟨S_, .f32⟩
  | 73 => ⟨S32768x256, .f32⟩
  | 74 => ⟨S32768x256, .f32⟩
  | 75 => ⟨S32768x256, .f32⟩
  | 76 => ⟨S32768x256, .f32⟩
  | 77 => ⟨S_, .f32⟩
  | 78 => ⟨S_, .f32⟩
  | 79 => ⟨S_, .f32⟩
  | 80 => ⟨S32768x256, .f32⟩
  | 81 => ⟨S32768x256, .f32⟩
  | 82 => ⟨S_, .f32⟩
  | 83 => ⟨S32768x256, .f32⟩
  | 84 => ⟨S32768x256, .f32⟩
  | 85 => ⟨S_, .f32⟩
  | 86 => ⟨S32768x256, .f32⟩
  | 87 => ⟨S32768x256, .f32⟩
  | 88 => ⟨S32768x256, .f32⟩
  | 89 => ⟨S_, .f32⟩
  | 90 => ⟨S32768x256, .f32⟩
  | 91 => ⟨S32768x256, .f32⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_2 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_cst_4 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v11 : Ref sig .tc := ⟨.hbm, 31, rfl⟩
abbrev main_cst_5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_6 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_7 : Ref sig .tc := ⟨.hbm, 41, rfl⟩
abbrev main_cst_8 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_v19 : Ref sig .tc := ⟨.hbm, 48, rfl⟩
abbrev main_cst_9 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_10 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_11 : Ref sig .tc := ⟨.hbm, 60, rfl⟩
abbrev main_cst_12 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_call4_v3 : Ref sig .tc := ⟨.hbm, 65, rfl⟩
abbrev main_call4_v4 : Ref sig .tc := ⟨.hbm, 66, rfl⟩
abbrev main_v29 : Ref sig .tc := ⟨.hbm, 67, rfl⟩
abbrev main_cst_13 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_14 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_15 : Ref sig .tc := ⟨.hbm, 78, rfl⟩
abbrev main_cst_16 : Ref sig .tc := ⟨.hbm, 79, rfl⟩
abbrev main_call6_v0 : Ref sig .tc := ⟨.hbm, 80, rfl⟩
abbrev main_call6_v1 : Ref sig .tc := ⟨.hbm, 81, rfl⟩
abbrev main_call6_v2 : Ref sig .tc := ⟨.hbm, 82, rfl⟩
abbrev main_call6_v3 : Ref sig .tc := ⟨.hbm, 83, rfl⟩
abbrev main_call6_v4 : Ref sig .tc := ⟨.hbm, 84, rfl⟩
abbrev main_v38 : Ref sig .tc := ⟨.hbm, 85, rfl⟩
abbrev main_cst_17 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_18 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_cst_19 : Ref sig .tc := ⟨.hbm, 102, rfl⟩
abbrev main_v53 : Ref sig .tc := ⟨.hbm, 103, rfl⟩
abbrev main_v54 : Ref sig .tc := ⟨.hbm, 104, rfl⟩
abbrev main_cst_20 : Ref sig .tc := ⟨.hbm, 105, rfl⟩
abbrev main_v55 : Ref sig .tc := ⟨.hbm, 106, rfl⟩
abbrev main_v56 : Ref sig .tc := ⟨.hbm, 107, rfl⟩
abbrev main_cst_21 : Ref sig .tc := ⟨.hbm, 108, rfl⟩
abbrev main_cst_22 : Ref sig .tc := ⟨.hbm, 109, rfl⟩
abbrev main_call8_v0 : Ref sig .tc := ⟨.hbm, 110, rfl⟩
abbrev main_call8_v1 : Ref sig .tc := ⟨.hbm, 111, rfl⟩
abbrev main_call8_v2 : Ref sig .tc := ⟨.hbm, 112, rfl⟩
abbrev main_call8_v3 : Ref sig .tc := ⟨.hbm, 113, rfl⟩
abbrev main_call8_v4 : Ref sig .tc := ⟨.hbm, 114, rfl⟩
abbrev main_v57 : Ref sig .tc := ⟨.hbm, 115, rfl⟩
abbrev main_cst_23 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_cst_24 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_cst_25 : Ref sig .tc := ⟨.hbm, 125, rfl⟩
abbrev main_v65 : Ref sig .tc := ⟨.hbm, 126, rfl⟩
abbrev main_v66 : Ref sig .tc := ⟨.hbm, 127, rfl⟩
abbrev main_cst_26 : Ref sig .tc := ⟨.hbm, 128, rfl⟩
abbrev main_v67 : Ref sig .tc := ⟨.hbm, 129, rfl⟩
abbrev main_v68 : Ref sig .tc := ⟨.hbm, 130, rfl⟩
abbrev main_cst_27 : Ref sig .tc := ⟨.hbm, 131, rfl⟩
abbrev main_cst_28 : Ref sig .tc := ⟨.hbm, 132, rfl⟩
abbrev main_call10_v0 : Ref sig .tc := ⟨.hbm, 133, rfl⟩
abbrev main_call10_v1 : Ref sig .tc := ⟨.hbm, 134, rfl⟩
abbrev main_call10_v2 : Ref sig .tc := ⟨.hbm, 135, rfl⟩
abbrev main_call10_v3 : Ref sig .tc := ⟨.hbm, 136, rfl⟩
abbrev main_call10_v4 : Ref sig .tc := ⟨.hbm, 137, rfl⟩
abbrev main_v69 : Ref sig .tc := ⟨.hbm, 138, rfl⟩
abbrev main_cst_29 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_cst_30 : Ref sig .tc := ⟨.hbm, 143, rfl⟩
abbrev main_v73 : Ref sig .tc := ⟨.hbm, 144, rfl⟩
abbrev main_v74 : Ref sig .tc := ⟨.hbm, 145, rfl⟩
abbrev main_v75 : Ref sig .tc := ⟨.hbm, 146, rfl⟩
abbrev main_cst_31 : Ref sig .tc := ⟨.hbm, 147, rfl⟩
abbrev main_cst_32 : Ref sig .tc := ⟨.hbm, 148, rfl⟩
abbrev main_call12_v0 : Ref sig .tc := ⟨.hbm, 149, rfl⟩
abbrev main_call12_v1 : Ref sig .tc := ⟨.hbm, 150, rfl⟩
abbrev main_call12_v2 : Ref sig .tc := ⟨.hbm, 151, rfl⟩
abbrev main_call12_v3 : Ref sig .tc := ⟨.hbm, 152, rfl⟩
abbrev main_call12_v4 : Ref sig .tc := ⟨.hbm, 153, rfl⟩
abbrev main_v76 : Ref sig .tc := ⟨.hbm, 154, rfl⟩
abbrev main_cst_33 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_cst_34 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_cst_35 : Ref sig .tc := ⟨.hbm, 164, rfl⟩
abbrev main_v84 : Ref sig .tc := ⟨.hbm, 165, rfl⟩
abbrev main_v85 : Ref sig .tc := ⟨.hbm, 166, rfl⟩
abbrev main_cst_36 : Ref sig .tc := ⟨.hbm, 167, rfl⟩
abbrev main_v86 : Ref sig .tc := ⟨.hbm, 168, rfl⟩
abbrev main_v87 : Ref sig .tc := ⟨.hbm, 169, rfl⟩
abbrev main_cst_37 : Ref sig .tc := ⟨.hbm, 170, rfl⟩
abbrev main_cst_38 : Ref sig .tc := ⟨.hbm, 171, rfl⟩
abbrev main_call14_v0 : Ref sig .tc := ⟨.hbm, 172, rfl⟩
abbrev main_call14_v1 : Ref sig .tc := ⟨.hbm, 173, rfl⟩
abbrev main_call14_v2 : Ref sig .tc := ⟨.hbm, 174, rfl⟩
abbrev main_call14_v3 : Ref sig .tc := ⟨.hbm, 175, rfl⟩
abbrev main_call14_v4 : Ref sig .tc := ⟨.hbm, 176, rfl⟩
abbrev main_v88 : Ref sig .tc := ⟨.hbm, 177, rfl⟩
abbrev main_cst_39 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_cst_40 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_cst_41 : Ref sig .tc := ⟨.hbm, 188, rfl⟩
abbrev main_cst_42 : Ref sig .tc := ⟨.hbm, 189, rfl⟩
abbrev main_call16_v0 : Ref sig .tc := ⟨.hbm, 190, rfl⟩
abbrev main_call16_v1 : Ref sig .tc := ⟨.hbm, 191, rfl⟩
abbrev main_call16_v2 : Ref sig .tc := ⟨.hbm, 192, rfl⟩
abbrev main_call16_v3 : Ref sig .tc := ⟨.hbm, 193, rfl⟩
abbrev main_call16_v4 : Ref sig .tc := ⟨.hbm, 194, rfl⟩
abbrev main_v97 : Ref sig .tc := ⟨.hbm, 195, rfl⟩
abbrev main_cst_43 : Ref sig .tc := ⟨.hbm, 196, rfl⟩
abbrev main_v98 : Ref sig .tc := ⟨.hbm, 197, rfl⟩
abbrev main_v99 : Ref sig .tc := ⟨.hbm, 198, rfl⟩
abbrev main_v100 : Ref sig .tc := ⟨.hbm, 199, rfl⟩
abbrev main_cst_44 : Ref sig .tc := ⟨.hbm, 200, rfl⟩
abbrev main_v101 : Ref sig .tc := ⟨.hbm, 201, rfl⟩
abbrev main_v102 : Ref sig .tc := ⟨.hbm, 202, rfl⟩
abbrev main_v103 : Ref sig .tc := ⟨.hbm, 203, rfl⟩
abbrev main_v104 : Ref sig .tc := ⟨.hbm, 204, rfl⟩
abbrev main_cst_45 : Ref sig .tc := ⟨.hbm, 205, rfl⟩
abbrev main_cst_46 : Ref sig .tc := ⟨.hbm, 206, rfl⟩
abbrev main_call18_v0 : Ref sig .tc := ⟨.hbm, 207, rfl⟩
abbrev main_call18_v1 : Ref sig .tc := ⟨.hbm, 208, rfl⟩
abbrev main_call18_v2 : Ref sig .tc := ⟨.hbm, 209, rfl⟩
abbrev main_call18_v3 : Ref sig .tc := ⟨.hbm, 210, rfl⟩
abbrev main_call18_v4 : Ref sig .tc := ⟨.hbm, 211, rfl⟩
abbrev main_v105 : Ref sig .tc := ⟨.hbm, 212, rfl⟩
abbrev main_cst_47 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_cst_48 : Ref sig .tc := ⟨.hbm, 217, rfl⟩
abbrev main_v109 : Ref sig .tc := ⟨.hbm, 218, rfl⟩
abbrev main_v110 : Ref sig .tc := ⟨.hbm, 219, rfl⟩

abbrev nD : Nat := 1
abbrev τ : Topo := Topo.v7x

variable {F : FTy → Type} [FloatOps F]

class Facts₀ : Prop where
  reducesTo_S1024x256_S_d0_1 : S1024x256.ReducesTo [0, 1] S_
  h_S_ : 0 < S_.numel
  bcast_S_S256x1024 : S_.BroadcastsInDim S256x1024 (![] : Fin 0 → Fin S256x1024.rank)
  transposes_S1024x256_S256x1024_1_0 : S1024x256.Transposes [1, 0] S256x1024
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  slices_S32768x1024_S32768x256_0_0 : S32768x1024.Slices ![0, 0] S32768x256
  slices_S32768x1024_S32768x256_0_256 : S32768x1024.Slices ![0, 256] S32768x256
  slices_S32768x1024_S32768x256_0_512 : S32768x1024.Slices ![0, 512] S32768x256
  slices_S32768x1024_S32768x256_0_768 : S32768x1024.Slices ![0, 768] S32768x256
  bcast_S_S32768x256 : S_.BroadcastsInDim S32768x256 (![] : Fin 0 → Fin S32768x256.rank)
  dot_S32768x256_S256x1024_S32768x1024_1_0_0_1_n_n_wf : DotDims.WF S32768x256 S256x1024 S32768x1024 [1] [0] [0] [1] [] []

variable [Facts₀]

def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf

class Facts : Prop extends Facts₀ where

variable [Facts]
-- ==== Proof.Cell.lean ====
/-
  A quantised LSTM cell on the extended reals, one entry at a time.

  For a batch row `r` and a hidden column `q` the four gate pre-activations are the entries
  `q`, `256 + q`, `512 + q`, `768 + q` of the row `x[r] · W₁ + b₁ + h[r] · W₂ + b₂` (a [1024] vector:
  two contractions over 256 terms and two bias entries). Each gate goes through a logistic or a
  hyperbolic tangent and a quantiser `quant s`: clamp to [0, 1], multiply by `s`, round to the nearest
  integer (ties to even), divide by `s`. The new cell state is
  `quant 128 (f · c + i · g)` and the new hidden state `quant 128 (o · tanh cy)`.

  The only algebra between the two ways of accumulating the pre-activation — both products first and
  the two biases added together, or product, bias, product, bias — is commutativity and associativity
  of `+`, which hold on all of `EReal`; no finiteness is used.
-/
import Idealize.ShloMosaic.PureOps.Ideal.Laws
import Idealize.ShloMosaic.Lib.ValueIdx
import Idealize.ShloMosaic.Lib.IdealHost

noncomputable section

namespace Cert.Cell

open Idealize.ShloMosaic Idealize.ShloMosaic.ValueIdx
open scoped BigOperators

/-! ## One entry -/

/-- The four float words the cell uses, as extended reals: 0, 1, 128 and 256. They are never evaluated
    except `1`, which meets the literal `1` inside the logistic. -/
abbrev lit0 : EReal := Ideal.ofBits .f32 0x00000000#32
abbrev lit1 : EReal := Ideal.ofBits .f32 0x3F800000#32
abbrev lit128 : EReal := Ideal.ofBits .f32 0x43000000#32
abbrev lit256 : EReal := Ideal.ofBits .f32 0x43800000#32

/-- Clamp to [0, 1], scale by `s`, round half to even, unscale. -/
def quant (s x : EReal) : EReal :=
  Ideal.div (Ideal.liftRound Ideal.roundHalfEven (min lit1 (max lit0 x) * s)) s

/-- The new cell state from the input, forget and cell pre-activations and the old cell state. -/
def cellNext (gi gf gc c : EReal) : EReal :=
  quant lit128 (quant lit256 (Ideal.logistic gf) * c + quant lit256 (Ideal.logistic gi) * quant lit128 (Ideal.tanh gc))

/-- The new hidden state from the output pre-activation and the new cell state. -/
def hiddenNext (go cy : EReal) : EReal :=
  quant lit128 (quant lit256 (Ideal.logistic go) * Ideal.tanh cy)

/-- The logistic spelt as `1 / (1 + e⁻ˣ)` over the float word of one is the logistic. -/
theorem logistic_spelt (x : EReal) : Ideal.div lit1 (lit1 + Ideal.exp (-x)) = Ideal.logistic x := by
  show Ideal.div (Ideal.ofBits .f32 0x3F800000#32) (Ideal.ofBits .f32 0x3F800000#32 + Ideal.exp (-x)) = _
  rw [Ideal.ofBits_one_f32]
  rfl

/-! ## The pre-activations -/

abbrev SRows : Shape := ⟨2, ![32768, 256]⟩
abbrev SWeight : Shape := ⟨2, ![256, 1024]⟩
abbrev SBias : Shape := ⟨1, ![1024]⟩

/-- Column `q` of each of the four gates inside the [1024] pre-activation row. -/
abbrev colI (q : Fin 256) : Fin 1024 := ⟨q.val, by omega⟩
abbrev colF (q : Fin 256) : Fin 1024 := ⟨q.val + 256, by omega⟩
abbrev colG (q : Fin 256) : Fin 1024 := ⟨q.val + 512, by omega⟩
abbrev colO (q : Fin 256) : Fin 1024 := ⟨q.val + 768, by omega⟩

section
variable (x h c : SRows.Idx → EReal) (W₁ W₂ : SWeight.Idx → EReal) (b₁ b₂ : SBias.Idx → EReal)

/-- Entry `j` of row `r` of `x · W₁ + b₁ + h · W₂ + b₂`, added in that order. -/
def gate (r : Fin 32768) (j : Fin 1024) : EReal :=
  (((∑ k : Fin 256, x (ix2 r k) * W₁ (ix2 k j)) + b₁ (ix1 j)) + ∑ k : Fin 256, h (ix2 r k) * W₂ (ix2 k j)) + b₂ (ix1 j)

/-- Both products first and the two biases added together give the same entry. -/
theorem gate_regroup (r : Fin 32768) (j : Fin 1024) :
    ((∑ k : Fin 256, x (ix2 r k) * W₁ (ix2 k j)) + ∑ k : Fin 256, h (ix2 r k) * W₂ (ix2 k j)) + (b₁ (ix1 j) + b₂ (ix1 j))
      = gate x h W₁ W₂ b₁ b₂ r j := by
  unfold gate
  exact (add_add_add_comm _ _ _ _).trans (add_assoc _ _ _).symm

/-- The new cell state, as one function of the arrays. -/
def cy : SRows.Idx → EReal := fun i =>
  cellNext (gate x h W₁ W₂ b₁ b₂ (i 0) (colI (i 1))) (gate x h W₁ W₂ b₁ b₂ (i 0) (colF (i 1)))
    (gate x h W₁ W₂ b₁ b₂ (i 0) (colG (i 1))) (c i)

/-- The new hidden state, as one function of the arrays. -/
def hy : SRows.Idx → EReal := fun i =>
  hiddenNext (gate x h W₁ W₂ b₁ b₂ (i 0) (colO (i 1))) (cy x h c W₁ W₂ b₁ b₂ i)

end

end Cert.Cell

end
-- ==== Proof.KernelBlock.lean ====
/-
  One block of the kernel, entry by entry, on the extended reals.

  At a grid point the body loads a [1024, 256] block of the inputs `x` and `h`, the old cell state's block,
  the two [256, 1024] weight matrices and the [1, 1024] bias row. Entry (p, j) of its pre-activation is
  `(Σₖ x[p,k]·W₁[k,j] + Σₖ h[p,k]·W₂[k,j]) + bias[0,j]`: two matrix products into zero accumulators, added,
  plus the broadcast bias row. The four gates are the column slices at offsets 0, 256, 512 and 768, so entry
  (p, q) of a gate is the pre-activation at column q plus the offset. Everything after the slices acts entry
  by entry, which makes the two stored blocks the cell functions `Cell.cellNext` and `Cell.hiddenNext` of those
  pre-activation entries and of the old cell state's entry.
-/
import proofs.«168718_j72035191488637_1_alg».proof.Proof.Gen.KernelIdeal.Skeleton
import proofs.«168718_j72035191488637_1_alg».proof.Proof.Cell
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.Cell
open scoped BigOperators

/-! ## A matrix product of the block at an entry -/

/-- The left operand is read at the result's row … -/
theorem lhs_axis0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
/-- … and the contraction index; -/
theorem lhs_axis1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
/-- the right operand at the contraction index … -/
theorem rhs_axis0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
/-- … and the result's column. -/
theorem rhs_axis1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- A [1024, 256] × [256, 1024] product into the zero accumulator, at entry (p, j): the sum over the 256
    contraction positions of row p times column j. -/
theorem product_entry (a : FVec Ideal S1024x256 .bf16) (w : FVec Ideal S256x1024 .bf16) (p : Fin 1024) (j : Fin 1024) :
    matmul dot_S1024x256_S256x1024_S1024x1024_1_0_0_1_n_n none a w (constant S1024x1024 .f32 0x00000000#32) (ix2 p j)
      = ∑ k : Fin 256, a (ix2 p k) * w (ix2 k j) := by
  simp only [matmul]
  rw [Ideal.matmul_constant_zero_apply, ← Equiv.sum_comp (ValueIdx.contrEquiv1 dot_S1024x256_S256x1024_S1024x1024_1_0_0_1_n_n 256 rfl rfl).symm]
  refine Finset.sum_congr rfl fun k _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p j) ((ValueIdx.contrEquiv1 dot_S1024x256_S256x1024_S1024x1024_1_0_0_1_n_n 256 rfl rfl).symm k) = ix2 p k := funext fun a => Fin.ext (by
    match a with
    | ⟨0, _⟩ => exact lhs_axis0 _ _
    | ⟨1, _⟩ => exact (lhs_axis1 _ _).trans hk)
  have er : dot_S1024x256_S256x1024_S1024x1024_1_0_0_1_n_n.rhsIdx (ix2 p j) ((ValueIdx.contrEquiv1 dot_S1024x256_S256x1024_S1024x1024_1_0_0_1_n_n 256 rfl rfl).symm k) = ix2 k j := funext fun a => Fin.ext (by
    match a with
    | ⟨0, _⟩ => exact (rhs_axis0 _ _).trans hk
    | ⟨1, _⟩ => exact rhs_axis1 _ _)
  rw [el, er]

/-! ## The pre-activation block at an entry -/

section
variable (x0 x1 x2 : FVec Ideal S1024x256 .f32) (w1 w2 : FVec Ideal S256x1024 .bf16) (b : FVec Ideal S1x1024 .f32)

/-- The bias row broadcast down the 1024 rows, at entry (p, j), is the row's entry j. -/
theorem bias_entry (p : Fin 1024) (j : Fin 1024) :
    broadcastTo S1024x1024 (shapeCast S1x1024 b shapeCasts_S1x1024_S1x1024) broadcasts_S1x1024_S1024x1024 (ix2 p j) = b (ix2 0 j) := by
  rw [shapeCast_self]
  exact broadcastTo_apply b _ (ix2 p j) (ix2 0 j) (fun a => by match a with | ⟨0, _⟩ => rfl | ⟨1, _⟩ => rfl)

/-- Entry (p, j) of the pre-activation block: the two products added, plus the bias entry. -/
theorem preact_entry (p : Fin 1024) (j : Fin 1024) :
    k0_pay2 (F := Ideal) x0 x1 w1 w2 b (ix2 p j)
      = ((∑ k : Fin 256, x0 (ix2 p k) * w1 (ix2 k j)) + ∑ k : Fin 256, x1 (ix2 p k) * w2 (ix2 k j)) + b (ix2 0 j) := by
  unfold k0_pay2
  show (matmul dot_S1024x256_S256x1024_S1024x1024_1_0_0_1_n_n none (truncf .bf16 x0 bitsLt_bf16_f32) (shapeCast S256x1024 w1 shapeCasts_S256x1024_S256x1024) (constant S1024x1024 .f32 0x00000000#32) (ix2 p j)
        + matmul dot_S1024x256_S256x1024_S1024x1024_1_0_0_1_n_n none (truncf .bf16 x1 bitsLt_bf16_f32) (shapeCast S256x1024 w2 shapeCasts_S256x1024_S256x1024) (constant S1024x1024 .f32 0x00000000#32) (ix2 p j))
      + broadcastTo S1024x1024 (shapeCast S1x1024 b shapeCasts_S1x1024_S1x1024) broadcasts_S1x1024_S1024x1024 (ix2 p j) = _
  rw [product_entry, product_entry, bias_entry, shapeCast_self, shapeCast_self]
  rfl

/-! ## The gate slices at an entry -/

theorem sliceI_entry (g : FVec Ideal S1024x1024 .f32) (p : Fin 1024) (q : Fin 256) :
    extractStridedSlice S1024x256 ![0, 0] g slices_S1024x1024_o0_0_S1024x256 (ix2 p q) = g (ix2 p (colI q)) :=
  extractStridedSlice_apply ![0, 0] g _ (ix2 p q) (ix2 p (colI q)) (fun a => match a with
    | ⟨0, _⟩ => by show p.val = 0 + p.val; omega
    | ⟨1, _⟩ => by show q.val = 0 + q.val; omega)
theorem sliceF_entry (g : FVec Ideal S1024x1024 .f32) (p : Fin 1024) (q : Fin 256) :
    extractStridedSlice S1024x256 ![0, 256] g slices_S1024x1024_o0_256_S1024x256 (ix2 p q) = g (ix2 p (colF q)) :=
  extractStridedSlice_apply ![0, 256] g _ (ix2 p q) (ix2 p (colF q)) (fun a => match a with
    | ⟨0, _⟩ => by show p.val = 0 + p.val; omega
    | ⟨1, _⟩ => by show q.val + 256 = 256 + q.val; omega)
theorem sliceG_entry (g : FVec Ideal S1024x1024 .f32) (p : Fin 1024) (q : Fin 256) :
    extractStridedSlice S1024x256 ![0, 512] g slices_S1024x1024_o0_512_S1024x256 (ix2 p q) = g (ix2 p (colG q)) :=
  extractStridedSlice_apply ![0, 512] g _ (ix2 p q) (ix2 p (colG q)) (fun a => match a with
    | ⟨0, _⟩ => by show p.val = 0 + p.val; omega
    | ⟨1, _⟩ => by show q.val + 512 = 512 + q.val; omega)
theorem sliceO_entry (g : FVec Ideal S1024x1024 .f32) (p : Fin 1024) (q : Fin 256) :
    extractStridedSlice S1024x256 ![0, 768] g slices_S1024x1024_o0_768_S1024x256 (ix2 p q) = g (ix2 p (colO q)) :=
  extractStridedSlice_apply ![0, 768] g _ (ix2 p q) (ix2 p (colO q)) (fun a => match a with
    | ⟨0, _⟩ => by show p.val = 0 + p.val; omega
    | ⟨1, _⟩ => by show q.val + 768 = 768 + q.val; omega)

/-! ## The two stored blocks at an entry -/

/-- The new cell state's block at (p, q): the cell function of the input, forget and cell pre-activations
    at row p and of the old cell state there. -/
theorem cell_entry (p : Fin 1024) (q : Fin 256) :
    k0_pay7 (F := Ideal) x2 (k0_pay3 x0 x1 w1 w2 b) (k0_pay5 x0 x1 w1 w2 b) (k0_pay6 x0 x1 w1 w2 b) (ix2 p q)
      = cellNext (k0_pay2 (F := Ideal) x0 x1 w1 w2 b (ix2 p (colI q))) (k0_pay2 (F := Ideal) x0 x1 w1 w2 b (ix2 p (colF q)))
          (k0_pay2 (F := Ideal) x0 x1 w1 w2 b (ix2 p (colG q))) (x2 (ix2 p q)) := by
  have eI := sliceI_entry (k0_pay2 (F := Ideal) x0 x1 w1 w2 b) p q
  have eF := sliceF_entry (k0_pay2 (F := Ideal) x0 x1 w1 w2 b) p q
  have eG := sliceG_entry (k0_pay2 (F := Ideal) x0 x1 w1 w2 b) p q
  unfold k0_pay7 k0_pay3 k0_pay5 k0_pay6
  simp only [divf, mulf, addf, roundeven, minimumf, maximumf, logistic, tanh, broadcast]
  rw [eI, eF, eG]
  rfl

/-- The new hidden state's block at (p, q): the hidden-state function of the output pre-activation and of
    the new cell state's entry. -/
theorem hidden_entry (p : Fin 1024) (q : Fin 256) :
    k0_pay1 (F := Ideal) (k0_pay8 x2 (k0_pay3 x0 x1 w1 w2 b) (k0_pay4 x0 x1 w1 w2 b) (k0_pay5 x0 x1 w1 w2 b) (k0_pay6 x0 x1 w1 w2 b))
        (Scalar.ofBits .f32 0x43000000#32) (ix2 p q)
      = hiddenNext (k0_pay2 (F := Ideal) x0 x1 w1 w2 b (ix2 p (colO q)))
          (k0_pay7 (F := Ideal) x2 (k0_pay3 x0 x1 w1 w2 b) (k0_pay5 x0 x1 w1 w2 b) (k0_pay6 x0 x1 w1 w2 b) (ix2 p q)) := by
  have eO := sliceO_entry (k0_pay2 (F := Ideal) x0 x1 w1 w2 b) p q
  unfold k0_pay1 k0_pay8 k0_pay4
  simp only [divf, mulf, roundeven, minimumf, maximumf, logistic, tanh, broadcast]
  rw [eO]
  rfl

end

end Cert.KernelIdeal.Block

end
-- ==== Proof.KernelArray.lean ====
/-
  From the kernel's blocks to its two result arrays.

  The grid has 32 points. At point t the three batch-sized inputs are staged as rows 1024·t … 1024·t + 1023 of
  their arrays, the two weight matrices and the bias row whole, and the two results are written back to the
  same rows of the result arrays. So entry (p, q) of what point t writes back is the cell function of row
  1024·t + p of the inputs, and the 32 blocks tile the 32768 rows: each result array is one function of the
  arrays the region finds — `Cell.hy` and `Cell.cy` of the three inputs, the two weight arrays, and any two
  bias vectors whose sum the bias row is (the pre-activation's two orders of addition agree by `Cell.gate_regroup`).
-/
import proofs.«168718_j72035191488637_1_alg».proof.Proof.Gen.KernelIdeal.Value
import proofs.«168718_j72035191488637_1_alg».proof.Proof.KernelBlock
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Block Cert.Cell Idealize.ShloMosaic.ValueIdx
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the 32 points: the batch-sized windows move one block of rows per point,
    the weights and the bias row stay at block (0, 0) -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

/-- Row p of the block at point t is row 1024·t + p of the array. -/
abbrev rowOf (t : Fin cfg0.N) (p : Fin 1024) : Fin 32768 :=
  ⟨t.val * 1024 + p.val, by have ht : t.val < 32 := lt_of_lt_of_eq t.isLt N_0; omega⟩

section
variable (c : Dev nD) (t : Fin cfg0.N)

/-! ## Each input block as entries of its array -/

/-- The block of `x` at point t. -/
theorem xBlock_entry (p : Fin 1024) (k : Fin 256) :
    (iblk m c 0 t : FVec Ideal S1024x256 .f32) (ix2 p k) = (V m c main_arg0 : FVec Ideal S32768x256 .f32) (ix2 (rowOf t p) k) := by
  obtain ⟨e0, e1⟩ := idx0 t
  unfold iblk
  rw [View.read_apply]
  show V m c main_arg0 _ = V m c main_arg0 _
  congr 1
  funext a
  apply Fin.ext
  match a with
  | ⟨0, _⟩ => show win0_0.index t (0 : Fin 2) * 1024 + 1 * p.val = t.val * 1024 + p.val; rw [e0]; omega
  | ⟨1, _⟩ => show win0_0.index t (1 : Fin 2) * 256 + 1 * k.val = k.val; rw [e1]; omega
/-- The block of `h` at point t. -/
theorem hBlock_entry (p : Fin 1024) (k : Fin 256) :
    (iblk m c 1 t : FVec Ideal S1024x256 .f32) (ix2 p k) = (V m c main_arg1 : FVec Ideal S32768x256 .f32) (ix2 (rowOf t p) k) := by
  obtain ⟨e0, e1⟩ := idx1 t
  unfold iblk
  rw [View.read_apply]
  show V m c main_arg1 _ = V m c main_arg1 _
  congr 1
  funext a
  apply Fin.ext
  match a with
  | ⟨0, _⟩ => show win0_1.index t (0 : Fin 2) * 1024 + 1 * p.val = t.val * 1024 + p.val; rw [e0]; omega
  | ⟨1, _⟩ => show win0_1.index t (1 : Fin 2) * 256 + 1 * k.val = k.val; rw [e1]; omega
/-- The block of the old cell state at point t. -/
theorem cBlock_entry (p : Fin 1024) (k : Fin 256) :
    (iblk m c 2 t : FVec Ideal S1024x256 .f32) (ix2 p k) = (V m c main_arg2 : FVec Ideal S32768x256 .f32) (ix2 (rowOf t p) k) := by
  obtain ⟨e0, e1⟩ := idx2 t
  unfold iblk
  rw [View.read_apply]
  show V m c main_arg2 _ = V m c main_arg2 _
  congr 1
  funext a
  apply Fin.ext
  match a with
  | ⟨0, _⟩ => show win0_2.index t (0 : Fin 2) * 1024 + 1 * p.val = t.val * 1024 + p.val; rw [e0]; omega
  | ⟨1, _⟩ => show win0_2.index t (1 : Fin 2) * 256 + 1 * k.val = k.val; rw [e1]; omega
/-- The input-to-hidden weights are staged whole at every point. -/
theorem wInBlock : (iblk m c 3 t : FVec Ideal S256x1024 .bf16) = V m c main_v18 := by
  obtain ⟨e0, e1⟩ := idx3 t
  funext y
  unfold iblk
  rw [View.read_apply]
  show V m c main_v18 _ = V m c main_v18 _
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 1024 + 1 * (y 1).val = (y 1).val; rw [e1]; omega
/-- The hidden-to-hidden weights are staged whole at every point. -/
theorem wHidBlock : (iblk m c 4 t : FVec Ideal S256x1024 .bf16) = V m c main_v27 := by
  obtain ⟨e0, e1⟩ := idx4 t
  funext y
  unfold iblk
  rw [View.read_apply]
  show V m c main_v27 _ = V m c main_v27 _
  congr 1
  funext a
  apply Fin.ext
  match a with
  | ⟨0, _⟩ => show win0_4.index t (0 : Fin 2) * 256 + 1 * (y 0).val = (y 0).val; rw [e0]; omega
  | ⟨1, _⟩ => show win0_4.index t (1 : Fin 2) * 1024 + 1 * (y 1).val = (y 1).val; rw [e1]; omega
/-- The bias row is staged whole at every point. -/
theorem biasBlock : (iblk m c 5 t : FVec Ideal S1x1024 .f32) = V m c main_v41 := by
  obtain ⟨e0, e1⟩ := idx5 t
  funext y
  unfold iblk
  rw [View.read_apply]
  show V m c main_v41 _ = V m c main_v41 _
  congr 1
  funext a
  apply Fin.ext
  match a with
  | ⟨0, _⟩ => show win0_5.index t (0 : Fin 2) * 1 + 1 * (y 0).val = (y 0).val; rw [e0]; omega
  | ⟨1, _⟩ => show win0_5.index t (1 : Fin 2) * 1024 + 1 * (y 1).val = (y 1).val; rw [e1]; omega

/-! ## The pre-activation of a block as the array's -/

variable (B₁ B₂ : FVec Ideal S1024 .f32)

/-- Entry (p, j) of the block's pre-activation is entry (1024·t + p, j) of `x · W₁ + b₁ + h · W₂ + b₂`. -/
theorem preact_block (hB : ∀ j : Fin 1024, (V m c main_v41 : FVec Ideal S1x1024 .f32) (ix2 0 j) = B₁ (ix1 j) + B₂ (ix1 j)) (p : Fin 1024) (j : Fin 1024) :
    k0_pay2 (F := Ideal) (iblk m c 0 t) (iblk m c 1 t) (iblk m c 3 t) (iblk m c 4 t) (iblk m c 5 t) (ix2 p j) = gate (V m c main_arg0) (V m c main_arg1) (V m c main_v18) (V m c main_v27) B₁ B₂ (rowOf t p) j := by
  refine (preact_entry (iblk m c 0 t) (iblk m c 1 t) (iblk m c 3 t) (iblk m c 4 t) (iblk m c 5 t) p j).trans ?_
  refine Eq.trans ?_ (gate_regroup (V m c main_arg0) (V m c main_arg1) (V m c main_v18) (V m c main_v27) B₁ B₂ (rowOf t p) j)
  refine congrArg₂ (· + ·) (congrArg₂ (· + ·) (Finset.sum_congr rfl fun k _ => ?_) (Finset.sum_congr rfl fun k _ => ?_)) ?_
  · rw [xBlock_entry m c t p k, wInBlock m c t]
  · rw [hBlock_entry m c t p k, wHidBlock m c t]
  · rw [biasBlock m c t]; exact hB j

/-! ## What a point writes back -/

/-- Point t writes back block t of the new cell state. -/
theorem flushed_cell (hB : ∀ j : Fin 1024, (V m c main_v41 : FVec Ideal S1x1024 .f32) (ix2 0 j) = B₁ (ix1 j) + B₂ (ix1 j)) :
    (dats m 0 c).flushed 7 t = ((cfg0.win 7).blk t).view.read (Elt Ideal) (cy (V m c main_arg0) (V m c main_arg1) (V m c main_arg2) (V m c main_v18) (V m c main_v27) B₁ B₂) := by
  obtain ⟨e0, e1⟩ := idx7 t
  rw [flushed7]
  unfold out0_7
  rw [View.canon_unit_zero hz]
  simp only [View.ld_unit_zero (S := S1024x256) hz, View.ld_unit_zero (S := S256x1024) hz, View.ld_unit_zero (S := S1x1024) hz]
  funext y
  obtain ⟨p, q, rfl⟩ : ∃ (p : Fin 1024) (q : Fin 256), y = ix2 p q := ⟨y 0, y 1, eq_ix2 y⟩
  show k0_pay7 (F := Ideal) (iblk m c 2 t) (k0_pay3 (iblk m c 0 t) (iblk m c 1 t) (iblk m c 3 t) (iblk m c 4 t) (iblk m c 5 t)) (k0_pay5 (iblk m c 0 t) (iblk m c 1 t) (iblk m c 3 t) (iblk m c 4 t) (iblk m c 5 t)) (k0_pay6 (iblk m c 0 t) (iblk m c 1 t) (iblk m c 3 t) (iblk m c 4 t) (iblk m c 5 t)) (ix2 p q)
      = cy (V m c main_arg0) (V m c main_arg1) (V m c main_arg2) (V m c main_v18) (V m c main_v27) B₁ B₂ (((cfg0.win 7).blk t).view.emb (ix2 p q))
  have he : ((cfg0.win 7).blk t).view.emb (ix2 p q) = ix2 (rowOf t p) q := by
    funext a
    apply Fin.ext
    match a with
    | ⟨0, _⟩ => show win0_7.index t (0 : Fin 2) * 1024 + 1 * p.val = t.val * 1024 + p.val; rw [e0]; omega
    | ⟨1, _⟩ => show win0_7.index t (1 : Fin 2) * 256 + 1 * q.val = q.val; rw [e1]; omega
  rw [he, cell_entry (iblk m c 0 t) (iblk m c 1 t) (iblk m c 2 t) (iblk m c 3 t) (iblk m c 4 t) (iblk m c 5 t) p q,
    preact_block m c t B₁ B₂ hB p (colI q), preact_block m c t B₁ B₂ hB p (colF q), preact_block m c t B₁ B₂ hB p (colG q),
    cBlock_entry m c t p q]
  rfl

/-- Point t writes back block t of the new hidden state. -/
theorem flushed_hidden (hB : ∀ j : Fin 1024, (V m c main_v41 : FVec Ideal S1x1024 .f32) (ix2 0 j) = B₁ (ix1 j) + B₂ (ix1 j)) :
    (dats m 0 c).flushed 6 t = ((cfg0.win 6).blk t).view.read (Elt Ideal) (hy (V m c main_arg0) (V m c main_arg1) (V m c main_arg2) (V m c main_v18) (V m c main_v27) B₁ B₂) := by
  obtain ⟨e0, e1⟩ := idx6 t
  rw [flushed6]
  unfold out0_6
  rw [View.canon_unit_zero hz]
  simp only [View.ld_unit_zero (S := S1024x256) hz, View.ld_unit_zero (S := S256x1024) hz, View.ld_unit_zero (S := S1x1024) hz]
  funext y
  obtain ⟨p, q, rfl⟩ : ∃ (p : Fin 1024) (q : Fin 256), y = ix2 p q := ⟨y 0, y 1, eq_ix2 y⟩
  show k0_pay1 (F := Ideal) (k0_pay8 (iblk m c 2 t) (k0_pay3 (iblk m c 0 t) (iblk m c 1 t) (iblk m c 3 t) (iblk m c 4 t) (iblk m c 5 t)) (k0_pay4 (iblk m c 0 t) (iblk m c 1 t) (iblk m c 3 t) (iblk m c 4 t) (iblk m c 5 t)) (k0_pay5 (iblk m c 0 t) (iblk m c 1 t) (iblk m c 3 t) (iblk m c 4 t) (iblk m c 5 t)) (k0_pay6 (iblk m c 0 t) (iblk m c 1 t) (iblk m c 3 t) (iblk m c 4 t) (iblk m c 5 t)))
        (Scalar.ofBits .f32 0x43000000#32) (ix2 p q)
      = hy (V m c main_arg0) (V m c main_arg1) (V m c main_arg2) (V m c main_v18) (V m c main_v27) B₁ B₂ (((cfg0.win 6).blk t).view.emb (ix2 p q))
  have he : ((cfg0.win 6).blk t).view.emb (ix2 p q) = ix2 (rowOf t p) q := by
    funext a
    apply Fin.ext
    match a with
    | ⟨0, _⟩ => show win0_6.index t (0 : Fin 2) * 1024 + 1 * p.val = t.val * 1024 + p.val; rw [e0]; omega
    | ⟨1, _⟩ => show win0_6.index t (1 : Fin 2) * 256 + 1 * q.val = q.val; rw [e1]; omega
  rw [he, hidden_entry (iblk m c 0 t) (iblk m c 1 t) (iblk m c 2 t) (iblk m c 3 t) (iblk m c 4 t) (iblk m c 5 t) p q, cell_entry (iblk m c 0 t) (iblk m c 1 t) (iblk m c 2 t) (iblk m c 3 t) (iblk m c 4 t) (iblk m c 5 t) p q,
    preact_block m c t B₁ B₂ hB p (colO q),
    preact_block m c t B₁ B₂ hB p (colI q), preact_block m c t B₁ B₂ hB p (colF q), preact_block m c t B₁ B₂ hB p (colG q),
    cBlock_entry m c t p q]
  rfl

/-! ## The blocks tile the rows -/

/-- An array index lies in point `t`'s block of output window 6 iff each coordinate lies in the block's range. -/
theorem mem_block6 (i : S32768x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v42_0).slice (win0_6.rect t)).set ↔ _
  rw [View.set_slice_whole, Rect.mem_set_unit]
  exact Iff.rfl
/-- An array index lies in point `t`'s block of output window 7 iff each coordinate lies in the block's range. -/
theorem mem_block7 (i : S32768x256.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v42_1).slice (win0_7.rect t)).set ↔ _
  rw [View.set_slice_whole, Rect.mem_set_unit]
  exact Iff.rfl

end

/-- Row r of the array lies in the block of the point r / 1024, and every point writes its block back. -/
theorem cover6 (i : S32768x256.Idx) : ∃ t : Fin cfg0.N, (cfg0.win 6).flush t = true ∧ i ∈ ((cfg0.win 6).blk t).view.set := by
  have hi0 : (i 0).val < 32768 := (i 0).isLt
  have hi1 : (i 1).val < 256 := (i 1).isLt
  have hlt : (i 0).val / 1024 < cfg0.N := by rw [show cfg0.N = 32 from N_0]; omega
  obtain ⟨e0, e1⟩ := idx6 ⟨(i 0).val / 1024, hlt⟩
  refine ⟨⟨(i 0).val / 1024, hlt⟩, flush0_6 _, ?_⟩
  rw [mem_block6]
  intro a
  match a with
  | ⟨0, _⟩ =>
    show win0_6.index ⟨(i 0).val / 1024, hlt⟩ (0 : Fin 2) * 1024 ≤ (i 0).val ∧ (i 0).val < win0_6.index ⟨(i 0).val / 1024, hlt⟩ (0 : Fin 2) * 1024 + 1024
    rw [e0]
    show (i 0).val / 1024 * 1024 ≤ (i 0).val ∧ (i 0).val < (i 0).val / 1024 * 1024 + 1024
    omega
  | ⟨1, _⟩ =>
    show win0_6.index ⟨(i 0).val / 1024, hlt⟩ (1 : Fin 2) * 256 ≤ (i 1).val ∧ (i 1).val < win0_6.index ⟨(i 0).val / 1024, hlt⟩ (1 : Fin 2) * 256 + 256
    rw [e1]
    omega
/-- Row r of the array lies in the block of the point r / 1024, and every point writes its block back. -/
theorem cover7 (i : S32768x256.Idx) : ∃ t : Fin cfg0.N, (cfg0.win 7).flush t = true ∧ i ∈ ((cfg0.win 7).blk t).view.set := by
  have hi0 : (i 0).val < 32768 := (i 0).isLt
  have hi1 : (i 1).val < 256 := (i 1).isLt
  have hlt : (i 0).val / 1024 < cfg0.N := by rw [show cfg0.N = 32 from N_0]; omega
  obtain ⟨e0, e1⟩ := idx7 ⟨(i 0).val / 1024, hlt⟩
  refine ⟨⟨(i 0).val / 1024, hlt⟩, flush0_7 _, ?_⟩
  rw [mem_block7]
  intro a
  match a with
  | ⟨0, _⟩ =>
    show win0_7.index ⟨(i 0).val / 1024, hlt⟩ (0 : Fin 2) * 1024 ≤ (i 0).val ∧ (i 0).val < win0_7.index ⟨(i 0).val / 1024, hlt⟩ (0 : Fin 2) * 1024 + 1024
    rw [e0]
    show (i 0).val / 1024 * 1024 ≤ (i 0).val ∧ (i 0).val < (i 0).val / 1024 * 1024 + 1024
    omega
  | ⟨1, _⟩ =>
    show win0_7.index ⟨(i 0).val / 1024, hlt⟩ (1 : Fin 2) * 256 ≤ (i 1).val ∧ (i 1).val < win0_7.index ⟨(i 0).val / 1024, hlt⟩ (1 : Fin 2) * 256 + 256
    rw [e1]
    omega

/-! ## The two result arrays, and the run -/

section
variable (c : Dev nD) (B₁ B₂ : FVec Ideal S1024 .f32)

/-- After the run the second result array holds the new cell state. -/
theorem final_cell (hB : ∀ j : Fin 1024, (V m c main_v41 : FVec Ideal S1x1024 .f32) (ix2 0 j) = B₁ (ix1 j) + B₂ (ix1 j)) : (dats m 0 c).arrAt 7 cfg0.N = cy (V m c main_arg0) (V m c main_arg1) (V m c main_arg2) (V m c main_v18) (V m c main_v27) B₁ B₂ :=
  (dats m 0 c).arrAt_eq_of_cover 7 (cy (V m c main_arg0) (V m c main_arg1) (V m c main_arg2) (V m c main_v18) (V m c main_v27) B₁ B₂) (fun t _ => flushed_cell m c t B₁ B₂ hB) cover7

/-- After the run the first result array holds the new hidden state. -/
theorem final_hidden (hB : ∀ j : Fin 1024, (V m c main_v41 : FVec Ideal S1x1024 .f32) (ix2 0 j) = B₁ (ix1 j) + B₂ (ix1 j)) : (dats m 0 c).arrAt 6 cfg0.N = hy (V m c main_arg0) (V m c main_arg1) (V m c main_arg2) (V m c main_v18) (V m c main_v27) B₁ B₂ :=
  (dats m 0 c).arrAt_eq_of_cover 6 (hy (V m c main_arg0) (V m c main_arg1) (V m c main_arg2) (V m c main_v18) (V m c main_v27) B₁ B₂) (fun t _ => flushed_hidden m c t B₁ B₂ hB) cover6

end

end Cert.KernelIdeal.Whole

end
-- ==== Proof.HostOperands.lean ====
/-
  What the host prepares for the kernel is what the reference computes for itself.

  Before the pallas_call the kernel's host program forms the effective weights
  `quantise(Wᵀ) + noise · max(W) · 0.1` for both weight matrices (then narrows them to bf16, which is the
  identity on the extended reals) and the sum of the two quantised bias vectors as a [1, 1024] row. The
  reference forms the same two weight arrays and the same two quantised biases with the same operations on
  the same arguments, so the arrays the region finds are the reference's stages; the bias row at column j is
  the sum of the two quantised biases at j, because a [1024] vector recast as [1, 1024] keeps row-major
  positions.
-/
import proofs.«168718_j72035191488637_1_alg».proof.Proof.Gen.KernelIdeal.Frame
import proofs.«168718_j72035191488637_1_alg».proof.Proof.Gen.ReferenceIdeal.Read
import proofs.«168718_j72035191488637_1_alg».proof.Proof.Cell
import Idealize.ShloMosaic.Lib.Pipeline.Value
import Idealize.ShloMosaic.Lib.StableHlo.Run

set_option maxRecDepth 16384

noncomputable section

namespace Cert.KernelIdeal.Operands

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

set_option maxHeartbeats 4000000 in
/-- The input-to-hidden weights the region finds are the reference's effective input weights. -/
theorem inputWeights (c : Dev nD) :
    (V m c main_v18 : Cert.Cell.SWeight.Idx → EReal)
      = Cert.ReferenceIdeal.Read.val_main_v17 (F := Ideal) (m ((c : Thread nD τ).loc main_arg3)) (m ((c : Thread nD τ).loc main_arg7)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 4000000 in
/-- The hidden-to-hidden weights the region finds are the reference's effective hidden weights. -/
theorem hiddenWeights (c : Dev nD) :
    (V m c main_v27 : Cert.Cell.SWeight.Idx → EReal)
      = Cert.ReferenceIdeal.Read.val_main_v35 (F := Ideal) (m ((c : Thread nD τ).loc main_arg4)) (m ((c : Thread nD τ).loc main_arg8)) := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 4000000 in
/-- The bias row the region finds is the two quantised biases added, recast from [1024] to [1, 1024]. -/
theorem biasRow_eq (c : Dev nD) :
    (V m c main_v41 : S1x1024.Idx → EReal)
      = shapeCast (α := EReal) S1x1024 (addf (F := Ideal) (φ := .f32) (Cert.ReferenceIdeal.Read.val_main_v24 (F := Ideal) (m ((c : Thread nD τ).loc main_arg5)))
          (Cert.ReferenceIdeal.Read.val_main_v43 (F := Ideal) (m ((c : Thread nD τ).loc main_arg6)))) shapeCasts_S1024_S1x1024 := by
  dsimp only [V]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- So its entry at column j is the sum of the two quantised biases at j. -/
theorem biasRow_entry (c : Dev nD) (j : Fin 1024) :
    (V m c main_v41 : S1x1024.Idx → EReal) (ix2 0 j)
      = Cert.ReferenceIdeal.Read.val_main_v24 (F := Ideal) (m ((c : Thread nD τ).loc main_arg5)) (ix1 j)
        + Cert.ReferenceIdeal.Read.val_main_v43 (F := Ideal) (m ((c : Thread nD τ).loc main_arg6)) (ix1 j) := by
  rw [biasRow_eq]
  refine (shapeCast_apply _ shapeCasts_S1024_S1x1024 (ix2 0 j) (ix1 j) ?_).trans rfl
  rw [Shape.rowMajor_val_one, Shape.rowMajor_val_two]
  show j.val = 0 * 1024 + j.val
  omega

end Cert.KernelIdeal.Operands

end
-- ==== Proof.Reference.lean ====
/-
  The reference, entry by entry, on the extended reals.

  The host program forms the [32768, 1024] pre-activation `x · W₁ + b₁ + h · W₂ + b₂` (two products over the
  256 input columns, each followed by its broadcast bias), cuts it into the four gates by column slices at
  0, 256, 512 and 768, and applies the logistic (spelt `1 / (1 + e⁻ˣ)`), the hyperbolic tangent and the
  quantiser entry by entry. Here its effective weights `W₁`, `W₂` and quantised biases `b₁`, `b₂` are kept as
  the whole arrays the host program computes; entry (r, q) of its two results is then `Cell.hy` and `Cell.cy`
  of the argument arrays and those four.
-/
import proofs.«168718_j72035191488637_1_alg».proof.Proof.Gen.ReferenceIdeal.Read
import proofs.«168718_j72035191488637_1_alg».proof.Proof.Cell

noncomputable section

namespace Cert.ReferenceIdeal.Cells

open Cert.ReferenceIdeal Cert.ReferenceIdeal.Gen Cert.ReferenceIdeal.Read Idealize.ShloMosaic Idealize.ShloMosaic.ValueIdx Cert.Cell
open scoped BigOperators

variable (x0 x1 x2 : (⟨S32768x256, .f32⟩ : BufTy).Contents (Elt Ideal)) (x3 x4 : (⟨S1024x256, .f32⟩ : BufTy).Contents (Elt Ideal))
  (x5 x6 : (⟨S1024, .f32⟩ : BufTy).Contents (Elt Ideal)) (x7 x8 : (⟨S256x1024, .f32⟩ : BufTy).Contents (Elt Ideal))

/-! ## The pre-activation at an entry -/

/-- Entry (r, j) of the host's pre-activation is `Cell.gate` of the arguments and the host's effective weights
    and biases: each product is a sum over the 256 input columns, each bias is read at column j. -/
theorem preact_stage (r : Fin 32768) (j : Fin 1024) :
    val_main_v46 (F := Ideal) x0 x1 x3 x4 x5 x6 x7 x8 (ix2 r j) = gate x0 x1 (val_main_v17 (F := Ideal) x3 x7) (val_main_v35 (F := Ideal) x4 x8) (val_main_v24 (F := Ideal) x5) (val_main_v43 (F := Ideal) x6) r j := by
  rw [val_main_v46_apply, val_main_v45_apply, val_main_v44_apply, val_main_v37_apply, val_main_v36_apply,
    val_main_v27_apply, val_main_v26_apply, val_main_v25_apply, val_main_v18_apply]
  have l18 : ∀ k : Fin 256, lidx_main_v18 (ix2 r j) k = ix2 r k := fun k =>
    funext fun a => Fin.ext (by match a with | ⟨0, _⟩ => rfl | ⟨1, _⟩ => rfl)
  have r18 : ∀ k : Fin 256, ridx_main_v18 (ix2 r j) k = ix2 k j := fun k =>
    funext fun a => Fin.ext (by match a with | ⟨0, _⟩ => rfl | ⟨1, _⟩ => rfl)
  have l36 : ∀ k : Fin 256, lidx_main_v36 (ix2 r j) k = ix2 r k := fun k =>
    funext fun a => Fin.ext (by match a with | ⟨0, _⟩ => rfl | ⟨1, _⟩ => rfl)
  have r36 : ∀ k : Fin 256, ridx_main_v36 (ix2 r j) k = ix2 k j := fun k =>
    funext fun a => Fin.ext (by match a with | ⟨0, _⟩ => rfl | ⟨1, _⟩ => rfl)
  have hb1 : idx_main_v25 (idx_main_v26 (ix2 r j)) = ix1 j :=
    funext fun a => Fin.ext (by match a with | ⟨0, _⟩ => rfl)
  have hb2 : idx_main_v44 (idx_main_v45 (ix2 r j)) = ix1 j :=
    funext fun a => Fin.ext (by match a with | ⟨0, _⟩ => rfl)
  simp only [l18, r18, l36, r36, hb1, hb2]
  rfl

/-! ## The gates at an entry: the logistic as the host spells it -/

theorem inputGate_stage (i : S32768x256.Idx) :
    val_main_v56 (F := Ideal) x0 x1 x3 x4 x5 x6 x7 x8 i = Ideal.logistic (val_main_v47 (F := Ideal) x0 x1 x3 x4 x5 x6 x7 x8 i) :=
  logistic_spelt _
theorem forgetGate_stage (i : S32768x256.Idx) :
    val_main_v68 (F := Ideal) x0 x1 x3 x4 x5 x6 x7 x8 i = Ideal.logistic (val_main_v48 (F := Ideal) x0 x1 x3 x4 x5 x6 x7 x8 i) :=
  logistic_spelt _
theorem outputGate_stage (i : S32768x256.Idx) :
    val_main_v87 (F := Ideal) x0 x1 x3 x4 x5 x6 x7 x8 i = Ideal.logistic (val_main_v50 (F := Ideal) x0 x1 x3 x4 x5 x6 x7 x8 i) :=
  logistic_spelt _

/-! ## The two results at an entry -/

/-- The new cell state at an entry is the cell function of the three gate slices and the old cell state. -/
theorem cell_stage (i : S32768x256.Idx) :
    val_main_v102 (F := Ideal) x0 x1 x2 x3 x4 x5 x6 x7 x8 i
      = cellNext (val_main_v47 (F := Ideal) x0 x1 x3 x4 x5 x6 x7 x8 i) (val_main_v48 (F := Ideal) x0 x1 x3 x4 x5 x6 x7 x8 i)
          (val_main_v49 (F := Ideal) x0 x1 x3 x4 x5 x6 x7 x8 i) (x2 i) := by
  show quant lit128 (quant lit256 (val_main_v68 (F := Ideal) x0 x1 x3 x4 x5 x6 x7 x8 i) * x2 i
      + quant lit256 (val_main_v56 (F := Ideal) x0 x1 x3 x4 x5 x6 x7 x8 i) * quant lit128 (Ideal.tanh (val_main_v49 (F := Ideal) x0 x1 x3 x4 x5 x6 x7 x8 i))) = _
  rw [inputGate_stage, forgetGate_stage]
  rfl

/-- The new hidden state at an entry is the hidden-state function of the output gate's slice and the new cell state. -/
theorem hidden_stage (i : S32768x256.Idx) :
    val_main_v110 (F := Ideal) x0 x1 x2 x3 x4 x5 x6 x7 x8 i
      = hiddenNext (val_main_v50 (F := Ideal) x0 x1 x3 x4 x5 x6 x7 x8 i) (val_main_v102 (F := Ideal) x0 x1 x2 x3 x4 x5 x6 x7 x8 i) := by
  show quant lit128 (quant lit256 (val_main_v87 (F := Ideal) x0 x1 x3 x4 x5 x6 x7 x8 i) * Ideal.tanh (val_main_v102 (F := Ideal) x0 x1 x2 x3 x4 x5 x6 x7 x8 i)) = _
  rw [outputGate_stage]
  rfl

/-- A gate slice at entry (r, q) is the pre-activation at the gate's column. -/
theorem slices_stage (r : Fin 32768) (q : Fin 256) :
    val_main_v47 (F := Ideal) x0 x1 x3 x4 x5 x6 x7 x8 (ix2 r q) = gate x0 x1 (val_main_v17 (F := Ideal) x3 x7) (val_main_v35 (F := Ideal) x4 x8) (val_main_v24 (F := Ideal) x5) (val_main_v43 (F := Ideal) x6) r (colI q)
    ∧ val_main_v48 (F := Ideal) x0 x1 x3 x4 x5 x6 x7 x8 (ix2 r q) = gate x0 x1 (val_main_v17 (F := Ideal) x3 x7) (val_main_v35 (F := Ideal) x4 x8) (val_main_v24 (F := Ideal) x5) (val_main_v43 (F := Ideal) x6) r (colF q)
    ∧ val_main_v49 (F := Ideal) x0 x1 x3 x4 x5 x6 x7 x8 (ix2 r q) = gate x0 x1 (val_main_v17 (F := Ideal) x3 x7) (val_main_v35 (F := Ideal) x4 x8) (val_main_v24 (F := Ideal) x5) (val_main_v43 (F := Ideal) x6) r (colG q)
    ∧ val_main_v50 (F := Ideal) x0 x1 x3 x4 x5 x6 x7 x8 (ix2 r q) = gate x0 x1 (val_main_v17 (F := Ideal) x3 x7) (val_main_v35 (F := Ideal) x4 x8) (val_main_v24 (F := Ideal) x5) (val_main_v43 (F := Ideal) x6) r (colO q) := by
  have eI : idx_main_v47 (ix2 r q) = ix2 r (colI q) := funext fun a => Fin.ext (by match a with | ⟨0, _⟩ => rfl | ⟨1, _⟩ => rfl)
  have eF : idx_main_v48 (ix2 r q) = ix2 r (colF q) := funext fun a => Fin.ext (by match a with | ⟨0, _⟩ => rfl | ⟨1, _⟩ => show 256 + q.val = q.val + 256; omega)
  have eG : idx_main_v49 (ix2 r q) = ix2 r (colG q) := funext fun a => Fin.ext (by match a with | ⟨0, _⟩ => rfl | ⟨1, _⟩ => show 512 + q.val = q.val + 512; omega)
  have eO : idx_main_v50 (ix2 r q) = ix2 r (colO q) := funext fun a => Fin.ext (by match a with | ⟨0, _⟩ => rfl | ⟨1, _⟩ => show 768 + q.val = q.val + 768; omega)
  refine ⟨?_, ?_, ?_, ?_⟩
  · rw [val_main_v47_apply, eI, preact_stage]
  · rw [val_main_v48_apply, eF, preact_stage]
  · rw [val_main_v49_apply, eG, preact_stage]
  · rw [val_main_v50_apply, eO, preact_stage]

/-- The reference's new cell state is `Cell.cy` of the arguments and the host's effective weights and biases. -/
theorem cell_eq : val_main_v102 (F := Ideal) x0 x1 x2 x3 x4 x5 x6 x7 x8 = cy x0 x1 x2 (val_main_v17 (F := Ideal) x3 x7) (val_main_v35 (F := Ideal) x4 x8) (val_main_v24 (F := Ideal) x5) (val_main_v43 (F := Ideal) x6) := by
  funext i
  obtain ⟨r, q, rfl⟩ : ∃ (r : Fin 32768) (q : Fin 256), i = ix2 r q := ⟨i 0, i 1, eq_ix2 i⟩
  obtain ⟨hI, hF, hG, -⟩ := slices_stage x0 x1 x3 x4 x5 x6 x7 x8 r q
  rw [cell_stage, hI, hF, hG]
  rfl

/-- The reference's new hidden state is `Cell.hy` of the same. -/
theorem hidden_eq : val_main_v110 (F := Ideal) x0 x1 x2 x3 x4 x5 x6 x7 x8 = hy x0 x1 x2 (val_main_v17 (F := Ideal) x3 x7) (val_main_v35 (F := Ideal) x4 x8) (val_main_v24 (F := Ideal) x5) (val_main_v43 (F := Ideal) x6) := by
  funext i
  obtain ⟨r, q, rfl⟩ : ∃ (r : Fin 32768) (q : Fin 256), i = ix2 r q := ⟨i 0, i 1, eq_ix2 i⟩
  obtain ⟨-, -, -, hO⟩ := slices_stage x0 x1 x3 x4 x5 x6 x7 x8 r q
  rw [hidden_stage, hO, cell_eq]
  rfl

end Cert.ReferenceIdeal.Cells

end
-- ==== Proof.lean ====
/-
  A quantised LSTM cell: the tiled kernel against the whole-array reference, over the extended reals.

  Both programs compute, for every batch row r and hidden column q,
    cy[r,q] = quant₁₂₈ (quant₂₅₆ (σ g_f) · c[r,q] + quant₂₅₆ (σ g_i) · quant₁₂₈ (tanh g_g)),
    hy[r,q] = quant₁₂₈ (quant₂₅₆ (σ g_o) · tanh cy[r,q]),
  where g_i, g_f, g_g, g_o are the entries q, 256 + q, 512 + q, 768 + q of row r of the pre-activation
  x · W₁ + h · W₂ + b₁ + b₂, with W₁, W₂ the noisy quantised weights and b₁, b₂ the quantised biases that the
  host computes the same way in both programs (Proof/Cell.lean states the functions, Proof/HostOperands.lean that
  the operands agree). The kernel works on 32 blocks of 1024 rows, adds the two products first and then the
  already-summed bias row, and uses one logistic operation; the reference adds product, bias, product, bias and
  spells the logistic as 1 / (1 + e⁻ˣ). Those are the only differences: the sums agree by commutativity and
  associativity of addition on the extended reals (Cell.gate_regroup) and the logistic is that quotient by
  definition (Cell.logistic_spelt). Finiteness of the inputs is not used.

  Proof/KernelBlock.lean reads one block of the kernel entry by entry, Proof/KernelArray.lean tiles the blocks
  into the two result arrays, Proof/Reference.lean reads the reference entry by entry; here the claims are assembled.
-/
import proofs.«168718_j72035191488637_1_alg».proof.Defs
import proofs.«168718_j72035191488637_1_alg».proof.Proof.Gen.Kernel
import proofs.«168718_j72035191488637_1_alg».proof.Proof.Gen.Kernel.Skeleton
import proofs.«168718_j72035191488637_1_alg».proof.Proof.Gen.Kernel.Launch
import proofs.«168718_j72035191488637_1_alg».proof.Proof.Gen.Kernel.Points
import proofs.«168718_j72035191488637_1_alg».proof.Proof.Gen.Kernel.Frame
import proofs.«168718_j72035191488637_1_alg».proof.Proof.Gen.KernelIdeal
import proofs.«168718_j72035191488637_1_alg».proof.Proof.Gen.KernelIdeal.Skeleton
import proofs.«168718_j72035191488637_1_alg».proof.Proof.Gen.KernelIdeal.Launch
import proofs.«168718_j72035191488637_1_alg».proof.Proof.Gen.KernelIdeal.Points
import proofs.«168718_j72035191488637_1_alg».proof.Proof.Gen.KernelIdeal.Frame
import proofs.«168718_j72035191488637_1_alg».proof.Proof.Gen.ReferenceIdeal
import proofs.«168718_j72035191488637_1_alg».proof.Proof.Gen.Pre_finite_inputs
import proofs.«168718_j72035191488637_1_alg».proof.Proof.Gen.KernelIdeal.Value
import proofs.«168718_j72035191488637_1_alg».proof.Proof.Gen.ReferenceIdeal.Run
import proofs.«168718_j72035191488637_1_alg».proof.Proof.Gen.ReferenceIdeal.Read
import proofs.«168718_j72035191488637_1_alg».proof.Proof.Cell
import proofs.«168718_j72035191488637_1_alg».proof.Proof.KernelBlock
import proofs.«168718_j72035191488637_1_alg».proof.Proof.KernelArray
import proofs.«168718_j72035191488637_1_alg».proof.Proof.HostOperands
import proofs.«168718_j72035191488637_1_alg».proof.Proof.Reference
import Idealize.ShloMosaic.Adequacy
import Idealize.ShloMosaic.Init

noncomputable section

namespace Cert.Proof

open Idealize.ShloMosaic Idealize.ShloMosaic.TcCoe Idealize.SL.Sem

/-! ## The frames -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-! ## The kernel's two result arrays as functions of the arguments -/

section
open Cert.KernelIdeal Cert.KernelIdeal.Gen

variable (m : (ℓ : Loc Cert.KernelIdeal.nD Cert.KernelIdeal.τ Cert.KernelIdeal.sig) → Buf (Elt Ideal) ℓ)

/-- The first result array ends at the new hidden state of the arguments, the operands the host prepared
    being the reference's effective weights and quantised biases. -/
theorem kernel_hidden (c : Dev Cert.KernelIdeal.nD) :
    (dats m 0 c).arrAt 6 cfg0.N = Cert.Cell.hy (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.ReferenceIdeal.Read.val_main_v17 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg7)))
      (Cert.ReferenceIdeal.Read.val_main_v35 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg8)))
      (Cert.ReferenceIdeal.Read.val_main_v24 (F := Ideal) (m ((c.tc : Thread Cert.KernelIdeal.nD Cert.KernelIdeal.τ).loc Cert.KernelIdeal.main_arg5)))
      (Cert.ReferenceIdeal.Read.val_main_v43 (F := Ideal) (m ((c.tc : Thread Cert.KernelIdeal.nD Cert.KernelIdeal.τ).loc Cert.KernelIdeal.main_arg6))) := by
  rw [Cert.KernelIdeal.Whole.final_hidden m c _ _ (Cert.KernelIdeal.Operands.biasRow_entry m c),
    V_main_arg0 m c, V_main_arg1 m c, V_main_arg2 m c,
    Cert.KernelIdeal.Operands.inputWeights m c, Cert.KernelIdeal.Operands.hiddenWeights m c]

/-- The second result array ends at the new cell state of the same. -/
theorem kernel_cell (c : Dev Cert.KernelIdeal.nD) :
    (dats m 0 c).arrAt 7 cfg0.N = Cert.Cell.cy (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.ReferenceIdeal.Read.val_main_v17 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg7)))
      (Cert.ReferenceIdeal.Read.val_main_v35 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg8)))
      (Cert.ReferenceIdeal.Read.val_main_v24 (F := Ideal) (m ((c.tc : Thread Cert.KernelIdeal.nD Cert.KernelIdeal.τ).loc Cert.KernelIdeal.main_arg5)))
      (Cert.ReferenceIdeal.Read.val_main_v43 (F := Ideal) (m ((c.tc : Thread Cert.KernelIdeal.nD Cert.KernelIdeal.τ).loc Cert.KernelIdeal.main_arg6))) := by
  rw [Cert.KernelIdeal.Whole.final_cell m c _ _ (Cert.KernelIdeal.Operands.biasRow_entry m c),
    V_main_arg0 m c, V_main_arg1 m c, V_main_arg2 m c,
    Cert.KernelIdeal.Operands.inputWeights m c, Cert.KernelIdeal.Operands.hiddenWeights m c]

end

/-! ## The value claim -/

/-- Run from memories that agree on the nine arguments, the kernel and the reference both end with the new
    hidden state and the new cell state of those arguments: `Cell.hy` and `Cell.cy`. -/
theorem algebraic : Cert.algebraic_KernelIdeal_ReferenceIdeal := by
  intro m ρ m' ρ' _ hagree
  refine ⟨fun c => Cert.Cell.hy (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.ReferenceIdeal.Read.val_main_v17 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg7)))
      (Cert.ReferenceIdeal.Read.val_main_v35 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg8)))
      (Cert.ReferenceIdeal.Read.val_main_v24 (F := Ideal) (m ((c.tc : Thread Cert.KernelIdeal.nD Cert.KernelIdeal.τ).loc Cert.KernelIdeal.main_arg5)))
      (Cert.ReferenceIdeal.Read.val_main_v43 (F := Ideal) (m ((c.tc : Thread Cert.KernelIdeal.nD Cert.KernelIdeal.τ).loc Cert.KernelIdeal.main_arg6))),
    fun c => Cert.Cell.cy (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.ReferenceIdeal.Read.val_main_v17 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg7)))
      (Cert.ReferenceIdeal.Read.val_main_v35 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg8)))
      (Cert.ReferenceIdeal.Read.val_main_v24 (F := Ideal) (m ((c.tc : Thread Cert.KernelIdeal.nD Cert.KernelIdeal.τ).loc Cert.KernelIdeal.main_arg5)))
      (Cert.ReferenceIdeal.Read.val_main_v43 (F := Ideal) (m ((c.tc : Thread Cert.KernelIdeal.nD Cert.KernelIdeal.τ).loc Cert.KernelIdeal.main_arg6))), ?_, ?_⟩
  · refine (θ_run Cert.KernelIdeal.defs _ _).mono (fun r h c => ?_) (Cert.KernelIdeal.Value.run_blocks (F := Ideal) m ρ)
    obtain ⟨h0, h1, hargs⟩ := h c
    exact ⟨h0.trans (kernel_hidden m c), h1.trans (kernel_cell m c), hargs⟩
  · refine (θ_run Cert.ReferenceIdeal.defs _ _).mono (fun r h c => ?_) (Cert.ReferenceIdeal.Value.run (F := Ideal) m' ρ')
    obtain ⟨h0, h1, hargs⟩ := h c
    obtain ⟨a0, a1, a2, a3, a4, a5, a6, a7, a8⟩ := hagree c
    refine ⟨h0.trans ?_, h1.trans ?_, hargs⟩
    · rw [Cert.ReferenceIdeal.Read.val_main_v110_eq, Cert.ReferenceIdeal.Cells.hidden_eq, a0, a1, a2, a3, a4, a5, a6, a7, a8]
    · rw [Cert.ReferenceIdeal.Read.val_main_v102_eq, Cert.ReferenceIdeal.Cells.cell_eq, a0, a1, a2, a3, a4, a5, a6, a7, a8]

/-! ## The claim -/

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
